-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S1600000 32) (main_arg2 : IVec S1600000 32) (main_arg3 : FVec F S1600000 .f32) (main_arg4 : FVec F S128x64 .f32) (main_arg5 : FVec F S64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S1600000x1 : Shape := ⟨2, ![1600000, 1]⟩
abbrev S_ : Shape := ⟨0, ![]⟩
abbrev S1600000x128 : Shape := ⟨2, ![1600000, 128]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩

abbrev nBuf : Space → Nat
  | .hbm => 28
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S1x64, .f32⟩
  | .hbm, ⟨25, _⟩ => ⟨S1x64, .f32⟩
  | .hbm, ⟨26, _⟩ => ⟨S100000x64, .f32⟩
  | .hbm, ⟨27, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S128x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S1600000x1 : Shape := ⟨2, ![1600000, 1]⟩
abbrev S_ : Shape := ⟨0, ![]⟩
abbrev S1600000x128 : Shape := ⟨2, ![1600000, 128]⟩
abbrev S100000x64 : Shape := ⟨2, ![100000, 64]⟩
abbrev S1x64 : Shape := ⟨2, ![1, 64]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v21 : Ref sig .tc := ⟨.hbm, 39, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.TileProduct.lean ====
/-
  One tile of the kernel's arithmetic, read at an index.

  At each grid point the kernel holds a tile of 5000 rows of the aggregated features, a whole weight matrix and
  a bias row.  It multiplies the tile by the weights into a zero accumulator and adds the bias row to every row
  of the product; for the second result it then clamps to [-10, 3].  Over the extended reals the change of
  format before the product is the identity and the product into a zero accumulator is the plain sum, so entry
  (p, q) of what the kernel stores is
      (∑ k < 128, tile (p, k) · W (k, q)) + bias (0, q),
  clamped for the second result.
-/
import proofs.«173927_j27487790695252_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The product's index maps: row of the left operand, column of the right, the contracted coordinate on both -/

theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_contr (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_contr (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The tile's product into a zero accumulator, at entry (p, q): the sum over the 128 features of the tile's row `p`
    against the weights' column `q`. -/
theorem product_apply {φ₁ φ₂ : FTy} (a : FVec Ideal S5000x128 φ₁) (w : FVec Ideal S128x64 φ₂) (p : Fin 5000) (q : Fin 64) :
    matmul dot_S5000x128_S128x64_S5000x64_1_0_0_1_n_n none a w (constant (F := Ideal) S5000x64 .f32 0x00000000#32) (ix2 p q)
      = ∑ k : Fin 128, a (ix2 p k) * w (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_contr _ _).trans hk
    | ⟨1, _⟩ => exact rhs_col _ _)
  rw [el, er]

/-! ## What the kernel stores for each result, entry by entry -/

/-- First result: the tile's row `p` against column `q` of the weights, plus the bias row's entry `q`. -/
theorem first_apply (v0 : Vec Ideal S5000x128 .f32) (v3 : Vec Ideal S128x64 .f32) (v8 : Vec Ideal S1x64 .f32) (p : Fin 5000) (q : Fin 64) :
    k0_pay2 (F := Ideal) v0 v3 v8 (ix2 p q) = (∑ k : Fin 128, v0 (ix2 p k) * v3 (ix2 k q)) + v8 (ix2 (0 : Fin 1) q) := by
  unfold k0_pay2 k0_pay1
  dsimp only
  rw [addf_apply, product_apply, broadcastTo_1b_ab_apply]
  simp only [truncf_apply, shapeCast_self]

/-- Second result: the same affine form with the second weights and bias, raised to at least -10 and then lowered to
    at most 3. -/
theorem second_apply (v0 : Vec Ideal S5000x128 .f32) (v5 : Vec Ideal S128x64 .f32) (v13 : Vec Ideal S1x64 .f32) (p : Fin 5000) (q : Fin 64) :
    k0_pay3 (F := Ideal) v0 v5 v13 (ix2 p q)
      = min (Ideal.ofBits .f32 0x40400000#32) (max (Ideal.ofBits .f32 0xC1200000#32)
          ((∑ k : Fin 128, v0 (ix2 p k) * v5 (ix2 k q)) + v13 (ix2 (0 : Fin 1) q))) := by
  unfold k0_pay3 k0_pay1
  dsimp only
  rw [minimumf_apply, maximumf_apply, broadcast_apply, broadcast_apply, addf_apply, product_apply, broadcastTo_1b_ab_apply]
  simp only [truncf_apply, shapeCast_self]
  rfl

end Cert.KernelIdeal.Tile

end
-- ==== Proof.Spec.lean ====
/-
  What both programs compute, as two functions of the aggregated node features, a weight matrix and a bias.

  The aggregated features `agg` (one row of 128 numbers per node) are produced by the same gather / multiply /
  scatter-add stretch in both programs, so here they are simply an array.  Each result is an affine projection
  of a row of `agg`:
      proj agg W b (n, j) = (∑ k < 128, agg (n, k) · W (k, j)) + b j,
  and the second result is that projection clamped to the interval [-10, 3] (first raised to at least -10,
  then lowered to at most 3).  All arithmetic is on the extended reals.
-/
import Idealize.ShloMosaic.PureOps.Ideal
import Idealize.ShloMosaic.Lib.ValueIdx

noncomputable section

open scoped BigOperators
open Idealize.ShloMosaic Idealize.ShloMosaic.ValueIdx

namespace Cert.Spec

/-- Node features after aggregation: 100000 nodes, 128 features. -/
abbrev SAgg : Shape := ⟨2, ![100000, 128]⟩
/-- A weight matrix: 128 features to 64 latent coordinates. -/
abbrev SW : Shape := ⟨2, ![128, 64]⟩
/-- A bias: one number per latent coordinate. -/
abbrev SB : Shape := ⟨1, ![64]⟩
/-- A result: 100000 nodes, 64 latent coordinates. -/
abbrev SOut : Shape := ⟨2, ![100000, 64]⟩

/-- The affine projection: row `n` of `agg` against column `j` of `W`, plus bias `j`. -/
def proj (agg : SAgg.Idx → EReal) (W : SW.Idx → EReal) (b : SB.Idx → EReal) : SOut.Idx → EReal :=
  fun i => (∑ k : Fin 128, agg (ix2 (n0 := 100000) (n1 := 128) (i 0) k) * W (ix2 (n0 := 128) (n1 := 64) k (i 1)))
    + b (ix1 (n := 64) (i 1))

/-- The projection clamped to [-10, 3]: `min 3 (max (-10) ·)`, the two bounds as the binary words both programs print. -/
def projClamped (agg : SAgg.Idx → EReal) (W : SW.Idx → EReal) (b : SB.Idx → EReal) : SOut.Idx → EReal :=
  fun i => min (Ideal.ofBits .f32 0x40400000#32) (max (Ideal.ofBits .f32 0xC1200000#32) (proj agg W b i))

theorem proj_apply (agg : SAgg.Idx → EReal) (W : SW.Idx → EReal) (b : SB.Idx → EReal) (n : Fin 100000) (j : Fin 64) :
    proj agg W b (ix2 n j) = (∑ k : Fin 128, agg (ix2 n k) * W (ix2 k j)) + b (ix1 j) := rfl

theorem projClamped_apply (agg : SAgg.Idx → EReal) (W : SW.Idx → EReal) (b : SB.Idx → EReal) (n : Fin 100000) (j : Fin 64) :
    projClamped agg W b (ix2 n j)
      = min (Ideal.ofBits .f32 0x40400000#32) (max (Ideal.ofBits .f32 0xC1200000#32) ((∑ k : Fin 128, agg (ix2 n k) * W (ix2 k j)) + b (ix1 j))) := rfl

end Cert.Spec

end
-- ==== Proof.PointValue.lean ====
/-
  One grid point of the kernel over plain arrays.

  If the tile a grid point holds is rows `r0 … r0 + 4999` of the aggregated features, the staged weights are the
  weight matrix and the staged bias row reads the bias, then each entry the kernel stores is the specification's
  function of the whole arrays at the entry's row `r0 + y₀` and column `y₁`.
-/
import proofs.«173927_j27487790695252_1_alg».proof.Proof.TileProduct
import proofs.«173927_j27487790695252_1_alg».proof.Proof.Spec

noncomputable section

open scoped BigOperators

namespace Cert.KernelIdeal.Point

open Cert.KernelIdeal Cert.KernelIdeal.Gen Idealize.ShloMosaic Idealize.ShloMosaic.ValueIdx

/-- If a tile holds rows `r0 … r0 + 4999` of `agg`, the staged weights are `W` and the staged bias row is `b`, then
    entry `y` of what the kernel stores for the first result is the projection at row `r0 + y₀`, column `y₁`. -/
theorem point_first (x0 : Vec Ideal S5000x128 .f32) (x1 : Vec Ideal S128x64 .f32) (x2 : Vec Ideal S1x64 .f32)
    (agg : S100000x128.Idx → EReal) (W : S128x64.Idx → EReal) (b : S64.Idx → EReal) (r0 : Nat)
    (y : S5000x64.Idx) (i : S100000x64.Idx)
    (hi0 : (i 0).val = r0 + (y 0).val) (hi1 : (i 1).val = (y 1).val)
    (h0 : ∀ (p : Fin 5000) (k : Fin 128) (n : Fin 100000), n.val = r0 + p.val → x0 (ix2 p k) = agg (ix2 n k))
    (h1 : ∀ j : S128x64.Idx, x1 j = W j)
    (h2 : ∀ q : Fin 64, x2 (ix2 (0 : Fin 1) q) = b (ix1 q)) :
    k0_pay2 (F := Ideal) x0 x1 x2 y = Cert.Spec.proj agg W b i := by
  obtain ⟨p, q, rfl⟩ : ∃ (p : Fin 5000) (q : Fin 64), y = ix2 p q := ⟨y 0, y 1, eq_ix2 y⟩
  obtain ⟨n, j, rfl⟩ : ∃ (n : Fin 100000) (j : Fin 64), i = ix2 n j := ⟨i 0, i 1, eq_ix2 i⟩
  have hj : j = q := Fin.ext hi1
  subst hj
  rw [Tile.first_apply, Cert.Spec.proj_apply, h2]
  congr 1
  exact Finset.sum_congr rfl fun k _ => by rw [h0 p k n hi0, h1]

/-- The same for the second result, with the clamp. -/
theorem point_second (x0 : Vec Ideal S5000x128 .f32) (x3 : Vec Ideal S128x64 .f32) (x4 : Vec Ideal S1x64 .f32)
    (agg : S100000x128.Idx → EReal) (W : S128x64.Idx → EReal) (b : S64.Idx → EReal) (r0 : Nat)
    (y : S5000x64.Idx) (i : S100000x64.Idx)
    (hi0 : (i 0).val = r0 + (y 0).val) (hi1 : (i 1).val = (y 1).val)
    (h0 : ∀ (p : Fin 5000) (k : Fin 128) (n : Fin 100000), n.val = r0 + p.val → x0 (ix2 p k) = agg (ix2 n k))
    (h1 : ∀ j : S128x64.Idx, x3 j = W j)
    (h2 : ∀ q : Fin 64, x4 (ix2 (0 : Fin 1) q) = b (ix1 q)) :
    k0_pay3 (F := Ideal) x0 x3 x4 y = Cert.Spec.projClamped agg W b i := by
  obtain ⟨p, q, rfl⟩ : ∃ (p : Fin 5000) (q : Fin 64), y = ix2 p q := ⟨y 0, y 1, eq_ix2 y⟩
  obtain ⟨n, j, rfl⟩ : ∃ (n : Fin 100000) (j : Fin 64), i = ix2 n j := ⟨i 0, i 1, eq_ix2 i⟩
  have hj : j = q := Fin.ext hi1
  subst hj
  rw [Tile.second_apply, Cert.Spec.projClamped_apply, h2]
  congr 3
  exact Finset.sum_congr rfl fun k _ => by rw [h0 p k n hi0, h1]

end Cert.KernelIdeal.Point

end
-- ==== Proof.GridIndex.lean ====
/-
  The grid's index arithmetic, over arbitrary array contents.

  The grid has 20 points.  At point `t` the features' window and both results' windows are block `t` along the rows
  (5000 rows a block) and block 0 along the columns; both weight windows and both bias-row windows are block (0, 0),
  the whole array.  So an entry (p, k) of the features' block is entry (5000 t + p, k) of the array, the weights' and
  bias rows' blocks read their arrays entry for entry, and row `r` of a result lies in the block of point `r / 5000`.
-/
import proofs.«173927_j27487790695252_1_alg».proof.Proof.Gen.KernelIdeal.Launch
import proofs.«173927_j27487790695252_1_alg».proof.Proof.Gen.KernelIdeal.Points
import Idealize.ShloMosaic.Lib.ValueIdx
import Idealize.ShloMosaic.Lib.Pipeline.Value

noncomputable section

namespace Cert.KernelIdeal.GridIdx

open Cert.KernelIdeal Cert.KernelIdeal.Gen Idealize.ShloMosaic Idealize.ShloMosaic.TcCoe Idealize.SL.Sem Idealize.ShloMosaic.ValueIdx

/-- The features' and the results' block index is the grid point on the rows and 0 on the columns; the weights and the
    bias rows are always block (0, 0).  Decided over the 20 points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## Input blocks read off arbitrary contents -/

/-- Entry (p, k) of the features' block at point `t` is entry (5000 t + p, k) of the array. -/
theorem features_read (A : S100000x128.Idx → EReal) (t : Fin cfg0.N) (p : Fin 5000) (k : Fin 128) (n : Fin 100000)
    (hn : n.val = 5000 * t.val + p.val) :
    (((cfg0.win 0).blk t).view.read (Elt Ideal) A : Vec Ideal S5000x128 .f32) (ix2 p k) = A (ix2 n k) := by
  obtain ⟨e0, e1, -⟩ := idx_facts t
  show A (((cfg0.win 0).blk t).view.emb (ix2 p k)) = A (ix2 n k)
  refine congrArg A (funext fun a => Fin.ext ?_)
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- The first weights' block is the whole array, entry for entry. -/
theorem weights1_read (A : S128x64.Idx → EReal) (t : Fin cfg0.N) (j : S128x64.Idx) :
    (((cfg0.win 1).blk t).view.read (Elt Ideal) A : Vec Ideal S128x64 .f32) j = A j := by
  obtain ⟨-, -, e0, e1, -⟩ := idx_facts t
  show A (((cfg0.win 1).blk t).view.emb j) = A j
  refine congrArg A (funext fun a => Fin.ext ?_)
  match a with
  | ⟨0, _⟩ => show win0_1.index t (0 : Fin 2) * 128 + 1 * (j 0).val = (j 0).val; rw [e0]; omega
  | ⟨1, _⟩ => show win0_1.index t (1 : Fin 2) * 64 + 1 * (j 1).val = (j 1).val; rw [e1]; omega

/-- The second weights' block likewise. -/
theorem weights2_read (A : S128x64.Idx → EReal) (t : Fin cfg0.N) (j : S128x64.Idx) :
    (((cfg0.win 3).blk t).view.read (Elt Ideal) A : Vec Ideal S128x64 .f32) j = A j := by
  obtain ⟨-, -, -, -, -, -, e0, e1, -⟩ := idx_facts t
  show A (((cfg0.win 3).blk t).view.emb j) = A j
  refine congrArg A (funext fun a => Fin.ext ?_)
  match a with
  | ⟨0, _⟩ => show win0_3.index t (0 : Fin 2) * 128 + 1 * (j 0).val = (j 0).val; rw [e0]; omega
  | ⟨1, _⟩ => show win0_3.index t (1 : Fin 2) * 64 + 1 * (j 1).val = (j 1).val; rw [e1]; omega

/-- The first bias row's block is the whole row. -/
theorem bias1_read (A : S1x64.Idx → EReal) (t : Fin cfg0.N) (q : Fin 64) :
    (((cfg0.win 2).blk t).view.read (Elt Ideal) A : Vec Ideal S1x64 .f32) (ix2 (0 : Fin 1) q) = A (ix2 (0 : Fin 1) q) := by
  obtain ⟨-, -, -, -, e0, e1, -⟩ := idx_facts t
  show A (((cfg0.win 2).blk t).view.emb (ix2 (0 : Fin 1) q)) = A (ix2 (0 : Fin 1) q)
  refine congrArg A (funext fun a => Fin.ext ?_)
  match a with
  | ⟨0, _⟩ => show win0_2.index t (0 : Fin 2) * 1 + 1 * 0 = 0; rw [e0]
  | ⟨1, _⟩ => show win0_2.index t (1 : Fin 2) * 64 + 1 * q.val = q.val; rw [e1]; omega

/-- The second bias row's block likewise. -/
theorem bias2_read (A : S1x64.Idx → EReal) (t : Fin cfg0.N) (q : Fin 64) :
    (((cfg0.win 4).blk t).view.read (Elt Ideal) A : Vec Ideal S1x64 .f32) (ix2 (0 : Fin 1) q) = A (ix2 (0 : Fin 1) q) := by
  obtain ⟨-, -, -, -, -, -, -, -, e0, e1, -⟩ := idx_facts t
  show A (((cfg0.win 4).blk t).view.emb (ix2 (0 : Fin 1) q)) = A (ix2 (0 : Fin 1) q)
  refine congrArg A (funext fun a => Fin.ext ?_)
  match a with
  | ⟨0, _⟩ => show win0_4.index t (0 : Fin 2) * 1 + 1 * 0 = 0; rw [e0]
  | ⟨1, _⟩ => show win0_4.index t (1 : Fin 2) * 64 + 1 * q.val = q.val; rw [e1]; omega

/-! ## Output blocks: where an entry lands, and which point writes a row -/

/-- Entry `y` of the first result's block at point `t` lands at row `5000 t + y₀`, column `y₁`. -/
theorem out1_row (t : Fin cfg0.N) (y : S5000x64.Idx) :
    ((((cfg0.win 5).blk t).view.emb y : S100000x64.Idx) 0).val = 5000 * t.val + (y 0).val := by
  obtain ⟨-, -, -, -, -, -, -, -, -, -, e0, e1, -⟩ := idx_facts t
  show win0_5.index t (0 : Fin 2) * 5000 + 1 * (y 0).val = 5000 * t.val + (y 0).val; rw [e0]; omega
theorem out1_col (t : Fin cfg0.N) (y : S5000x64.Idx) :
    ((((cfg0.win 5).blk t).view.emb y : S100000x64.Idx) 1).val = (y 1).val := by
  obtain ⟨-, -, -, -, -, -, -, -, -, -, e0, e1, -⟩ := idx_facts t
  show win0_5.index t (1 : Fin 2) * 64 + 1 * (y 1).val = (y 1).val; rw [e1]; omega
/-- The same for the second result. -/
theorem out2_row (t : Fin cfg0.N) (y : S5000x64.Idx) :
    ((((cfg0.win 6).blk t).view.emb y : S100000x64.Idx) 0).val = 5000 * t.val + (y 0).val := by
  obtain ⟨-, -, -, -, -, -, -, -, -, -, -, -, e0, e1⟩ := idx_facts t
  show win0_6.index t (0 : Fin 2) * 5000 + 1 * (y 0).val = 5000 * t.val + (y 0).val; rw [e0]; omega
theorem out2_col (t : Fin cfg0.N) (y : S5000x64.Idx) :
    ((((cfg0.win 6).blk t).view.emb y : S100000x64.Idx) 1).val = (y 1).val := by
  obtain ⟨-, -, -, -, -, -, -, -, -, -, -, -, e0, e1⟩ := idx_facts t
  show win0_6.index t (1 : Fin 2) * 64 + 1 * (y 1).val = (y 1).val; rw [e1]; omega

/-- An index of a result array is in point `t`'s block iff each coordinate is in the block's range on its axis. -/
theorem mem_blk5 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v15_0).slice (win0_5.rect t)).set ↔ _
  rw [View.set_slice_whole, Rect.mem_set_unit]
  exact Iff.rfl
theorem mem_blk6 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v15_1).slice (win0_6.rect t)).set ↔ _
  rw [View.set_slice_whole, Rect.mem_set_unit]
  exact Iff.rfl

/-- Row `r` of the first result is written by point `r / 5000`: the 20 blocks of 5000 rows tile the 100000 rows. -/
theorem cover5 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨-, -, -, -, -, -, -, -, -, -, e0, e1, -⟩ := idx_facts ⟨(i 0).val / 5000, hlt⟩
  refine ⟨⟨(i 0).val / 5000, hlt⟩, flush0_5 _, ?_⟩
  rw [mem_blk5]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ (1 : Fin 2) * 64 ≤ (i 1).val ∧ (i 1).val < win0_5.index ⟨(i 0).val / 5000, hlt⟩ (1 : Fin 2) * 64 + 64
    rw [e1]; omega
/-- The same for the second result. -/
theorem cover6 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨-, -, -, -, -, -, -, -, -, -, -, -, e0, e1⟩ := idx_facts ⟨(i 0).val / 5000, hlt⟩
  refine ⟨⟨(i 0).val / 5000, hlt⟩, flush0_6 _, ?_⟩
  rw [mem_blk6]
  intro a
  match a with
  | ⟨0, _⟩ =>
    show win0_6.index ⟨(i 0).val / 5000, hlt⟩ (0 : Fin 2) * 5000 ≤ (i 0).val ∧ (i 0).val < win0_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hlt⟩ (1 : Fin 2) * 64 ≤ (i 1).val ∧ (i 1).val < win0_6.index ⟨(i 0).val / 5000, hlt⟩ (1 : Fin 2) * 64 + 64
    rw [e1]; omega

end Cert.KernelIdeal.GridIdx

end
-- ==== Proof.BlockValue.lean ====
/-
  One grid point's whole block, over plain arrays.

  If the tile at grid point `t` holds rows `5000 t … 5000 t + 4999` of `agg`, the staged weights are `W` and the
  staged bias row reads `b`, then what the kernel stores for a result at that point is block `t` — rows
  `5000 t … 5000 t + 4999`, all 64 columns — of the specification's function of `agg`, `W` and `b`.
-/
import proofs.«173927_j27487790695252_1_alg».proof.Proof.PointValue
import proofs.«173927_j27487790695252_1_alg».proof.Proof.GridIndex

noncomputable section

namespace Cert.KernelIdeal.Block

open Cert.KernelIdeal Cert.KernelIdeal.Gen Idealize.ShloMosaic Idealize.ShloMosaic.TcCoe Idealize.SL.Sem Idealize.ShloMosaic.ValueIdx

/-- The first result's block at point `t`. -/
theorem block_first (t : Fin cfg0.N) (x0 : Vec Ideal S5000x128 .f32) (x1 : Vec Ideal S128x64 .f32) (x2 : Vec Ideal S1x64 .f32)
    (agg : S100000x128.Idx → EReal) (W : S128x64.Idx → EReal) (b : S64.Idx → EReal)
    (h0 : ∀ (p : Fin 5000) (k : Fin 128) (n : Fin 100000), n.val = 5000 * t.val + p.val → x0 (ix2 p k) = agg (ix2 n k))
    (h1 : ∀ j : S128x64.Idx, x1 j = W j)
    (h2 : ∀ q : Fin 64, x2 (ix2 (0 : Fin 1) q) = b (ix1 q)) :
    (cfg0.win 5).cut (grid0.coords t) (k0_pay2 (F := Ideal) x0 x1 x2)
      = ((cfg0.win 5).blk t).view.read (Elt Ideal) (Cert.Spec.proj agg W b) := by
  funext y
  exact Point.point_first x0 x1 x2 agg W b (5000 * t.val) y (((cfg0.win 5).blk t).view.emb y)
    (GridIdx.out1_row t y) (GridIdx.out1_col t y) h0 h1 h2

/-- The second result's block at point `t`. -/
theorem block_second (t : Fin cfg0.N) (x0 : Vec Ideal S5000x128 .f32) (x3 : Vec Ideal S128x64 .f32) (x4 : Vec Ideal S1x64 .f32)
    (agg : S100000x128.Idx → EReal) (W : S128x64.Idx → EReal) (b : S64.Idx → EReal)
    (h0 : ∀ (p : Fin 5000) (k : Fin 128) (n : Fin 100000), n.val = 5000 * t.val + p.val → x0 (ix2 p k) = agg (ix2 n k))
    (h1 : ∀ j : S128x64.Idx, x3 j = W j)
    (h2 : ∀ q : Fin 64, x4 (ix2 (0 : Fin 1) q) = b (ix1 q)) :
    (cfg0.win 6).cut (grid0.coords t) (k0_pay3 (F := Ideal) x0 x3 x4)
      = ((cfg0.win 6).blk t).view.read (Elt Ideal) (Cert.Spec.projClamped agg W b) := by
  funext y
  exact Point.point_second x0 x3 x4 agg W b (5000 * t.val) y (((cfg0.win 6).blk t).view.emb y)
    (GridIdx.out2_row t y) (GridIdx.out2_col t y) h0 h1 h2

end Cert.KernelIdeal.Block

end
-- ==== Proof.StagedBlocks.lean ====
/-
  The blocks a grid point stages, as entries of the program's arrays.

  The features' block is rows `5000 t … 5000 t + 4999` of the aggregated features the call finds; the staged weights
  are the two weight arguments (nothing before the call writes them); the staged bias rows are the bias arguments,
  which the program reshapes from 64 numbers to a 1 × 64 row before the call.
-/
import proofs.«173927_j27487790695252_1_alg».proof.Proof.Gen.KernelIdeal.Frame
import proofs.«173927_j27487790695252_1_alg».proof.Proof.GridIndex
import Idealize.ShloMosaic.Lib.ValueLayout
import Idealize.ShloMosaic.Lib.StableHlo.Run

noncomputable section

namespace Cert.KernelIdeal.Staged

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The first bias row the call finds is the first bias reshaped from 64 numbers to one row. -/
theorem bias_row1 (c : Dev nD) : (V m c main_v13 : S1x64.Idx → EReal) = shapeCast S1x64 (m ((c : Thread nD τ).loc main_arg5)) shapeCasts_S64_S1x64 := by
  dsimp only [Gen.V, Gen.hostOps0]; after_results; rfl
/-- The second bias row likewise. -/
theorem bias_row2 (c : Dev nD) : (V m c main_v14 : S1x64.Idx → EReal) = shapeCast S1x64 (m ((c : Thread nD τ).loc main_arg7)) shapeCasts_S64_S1x64 := by
  dsimp only [Gen.V, Gen.hostOps0]; after_results; rfl

/-- The features' tile at point `t` is rows `5000 t + p` of the aggregated features. -/
theorem tile_rows (c : Dev nD) (t : Fin cfg0.N) (p : Fin 5000) (k : Fin 128) (n : Fin 100000) (hn : n.val = 5000 * t.val + p.val) :
    (iblk m c 0 t : Vec Ideal S5000x128 .f32) (ix2 p k) = (V m c main_v12 : S100000x128.Idx → EReal) (ix2 n k) := by
  unfold iblk
  exact GridIdx.features_read (V m c main_v12) t p k n hn

/-- The staged first weights are the first weight argument, whole. -/
theorem weights1 (c : Dev nD) (t : Fin cfg0.N) (j : S128x64.Idx) :
    (iblk m c 1 t : Vec Ideal S128x64 .f32) j = (m ((c : Thread nD τ).loc main_arg4) : S128x64.Idx → EReal) j := by
  unfold iblk
  exact (GridIdx.weights1_read (V m c main_arg4) t j).trans (congrFun (V_main_arg4 m c) j)

/-- The staged second weights are the second weight argument, whole. -/
theorem weights2 (c : Dev nD) (t : Fin cfg0.N) (j : S128x64.Idx) :
    (iblk m c 3 t : Vec Ideal S128x64 .f32) j = (m ((c : Thread nD τ).loc main_arg6) : S128x64.Idx → EReal) j := by
  unfold iblk
  exact (GridIdx.weights2_read (V m c main_arg6) t j).trans (congrFun (V_main_arg6 m c) j)

/-- The staged first bias row reads the first bias argument. -/
theorem bias1 (c : Dev nD) (t : Fin cfg0.N) (q : Fin 64) :
    (iblk m c 2 t : Vec Ideal S1x64 .f32) (ix2 (0 : Fin 1) q) = (m ((c : Thread nD τ).loc main_arg5) : S64.Idx → EReal) (ix1 q) := by
  unfold iblk
  exact (GridIdx.bias1_read (V m c main_v13) t q).trans
    ((congrFun (bias_row1 m c) (ix2 (0 : Fin 1) q)).trans
      (shapeCast_a_1a_apply (m ((c : Thread nD τ).loc main_arg5)) shapeCasts_S64_S1x64 (0 : Fin 1) q))

/-- The staged second bias row reads the second bias argument. -/
theorem bias2 (c : Dev nD) (t : Fin cfg0.N) (q : Fin 64) :
    (iblk m c 4 t : Vec Ideal S1x64 .f32) (ix2 (0 : Fin 1) q) = (m ((c : Thread nD τ).loc main_arg7) : S64.Idx → EReal) (ix1 q) := by
  unfold iblk
  exact (GridIdx.bias2_read (V m c main_v14) t q).trans
    ((congrFun (bias_row2 m c) (ix2 (0 : Fin 1) q)).trans
      (shapeCast_a_1a_apply (m ((c : Thread nD τ).loc main_arg7)) shapeCasts_S64_S1x64 (0 : Fin 1) q))

end Cert.KernelIdeal.Staged

end
-- ==== Proof.KernelValue.lean ====
/-
  The kernel's two result arrays are the specification's two functions of the aggregated features.

  Point `t` of the grid holds rows `5000 t … 5000 t + 4999` of the aggregated features, both weight matrices and
  both bias rows, and writes rows `5000 t … 5000 t + 4999` of each result.  What it writes is block `t` of the
  specification's function of the whole arrays; the 20 blocks tile the 100000 rows; so each result array ends as that
  function.
-/
import proofs.«173927_j27487790695252_1_alg».proof.Proof.Gen.KernelIdeal.Value
import proofs.«173927_j27487790695252_1_alg».proof.Proof.BlockValue
import proofs.«173927_j27487790695252_1_alg».proof.Proof.StagedBlocks

noncomputable section

namespace Cert.KernelIdeal.Arr

open Cert.KernelIdeal Cert.KernelIdeal.Gen Cert.KernelIdeal.Value Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The first result as a function of the aggregated features `agg` and the first weights and bias. -/
abbrev first (c : Dev nD) (agg : S100000x128.Idx → EReal) : S100000x64.Idx → EReal :=
  Cert.Spec.proj agg (m ((c : Thread nD τ).loc main_arg4)) (m ((c : Thread nD τ).loc main_arg5))
/-- The second result as a function of the aggregated features and the second weights and bias. -/
abbrev second (c : Dev nD) (agg : S100000x128.Idx → EReal) : S100000x64.Idx → EReal :=
  Cert.Spec.projClamped agg (m ((c : Thread nD τ).loc main_arg6)) (m ((c : Thread nD τ).loc main_arg7))

/-- Point `t` writes block `t` of the first result. -/
theorem flushed_first (c : Dev nD) (t : Fin cfg0.N) :
    (dats m 0 c).flushed 5 t = ((cfg0.win 5).blk t).view.read (Elt Ideal) (first m c (V m c main_v12)) := by
  rw [Value.flushed5]
  unfold out0_5
  rw [View.canon_unit_zero hz]
  simp only [View.ld_unit_zero (S := S5000x128) hz, View.ld_unit_zero (S := S128x64) hz, View.ld_unit_zero (S := S1x64) hz]
  exact Block.block_first t (iblk m c 0 t) (iblk m c 1 t) (iblk m c 2 t) (V m c main_v12) (m ((c : Thread nD τ).loc main_arg4)) (m ((c : Thread nD τ).loc main_arg5))
    (fun p k n hn => Staged.tile_rows m c t p k n hn) (fun j => Staged.weights1 m c t j) (fun q => Staged.bias1 m c t q)

/-- Point `t` writes block `t` of the second result. -/
theorem flushed_second (c : Dev nD) (t : Fin cfg0.N) :
    (dats m 0 c).flushed 6 t = ((cfg0.win 6).blk t).view.read (Elt Ideal) (second m c (V m c main_v12)) := by
  rw [Value.flushed6]
  unfold out0_6
  rw [View.canon_unit_zero hz]
  simp only [View.ld_unit_zero (S := S5000x128) hz, View.ld_unit_zero (S := S128x64) hz, View.ld_unit_zero (S := S1x64) hz]
  exact Block.block_second t (iblk m c 0 t) (iblk m c 3 t) (iblk m c 4 t) (V m c main_v12) (m ((c : Thread nD τ).loc main_arg6)) (m ((c : Thread nD τ).loc main_arg7))
    (fun p k n hn => Staged.tile_rows m c t p k n hn) (fun j => Staged.weights2 m c t j) (fun q => Staged.bias2 m c t q)

/-- After the run the first result array is the projection of the aggregated features. -/
theorem final_first (c : Dev nD) : (dats m 0 c).arrAt 5 cfg0.N = first m c (V m c main_v12) :=
  (dats m 0 c).arrAt_eq_of_cover 5 (first m c (V m c main_v12)) (fun t _ => flushed_first m c t) GridIdx.cover5
/-- After the run the second result array is the clamped projection. -/
theorem final_second (c : Dev nD) : (dats m 0 c).arrAt 6 cfg0.N = second m c (V m c main_v12) :=
  (dats m 0 c).arrAt_eq_of_cover 6 (second m c (V m c main_v12)) (fun t _ => flushed_second m c t) GridIdx.cover6

/-- The run, read: both result arrays at the specification's functions of the aggregated features the call finds, the
    arguments unchanged. -/
theorem run : θ_run defs (onTc (τ := τ) (main (F := Ideal))) ⟨m, fun _ => 0, ρ⟩ fun r => ∀ c : Dev nD,
      r.2.mem ((c : Thread nD τ).loc main_v15_0) = first m c (V m c main_v12)
      ∧ r.2.mem ((c : Thread nD τ).loc main_v15_1) = second m c (V m c main_v12)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_first m c), (h c).2.1.trans (final_second m c), (h c).2.2⟩)
    (Value.run_blocks m ρ)

end Cert.KernelIdeal.Arr

end
-- ==== Proof.RefValue.lean ====
/-
  The reference's two results are the specification's two functions of the aggregated features.

  The reference multiplies the whole array of aggregated features by each weight matrix (a contraction over the 128
  features), adds the bias broadcast along the nodes, and clamps the second result between the two bounds.  Read at
  an entry (n, j) this is `(∑ k < 128, agg (n, k) · W (k, j)) + b j`, and for the second result
  `min 3 (max (-10) ·)` of it: the specification, entry by entry.
-/
import proofs.«173927_j27487790695252_1_alg».proof.Proof.Gen.ReferenceIdeal.Read
import proofs.«173927_j27487790695252_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The contraction reads row `n` of the left operand … -/
theorem lrow (n : Fin 100000) (j : Fin 64) (k : Fin 128) : lidx_main_v13 (ix2 n j) k = ix2 n k :=
  funext fun a => by match a with | ⟨0, _⟩ => rfl | ⟨1, _⟩ => rfl
/-- … against column `j` of the right one. -/
theorem rcol (n : Fin 100000) (j : Fin 64) (k : Fin 128) : ridx_main_v13 (ix2 n j) k = ix2 k j :=
  funext fun a => by match a with | ⟨0, _⟩ => rfl | ⟨1, _⟩ => rfl
theorem lrow' (n : Fin 100000) (j : Fin 64) (k : Fin 128) : lidx_main_v17 (ix2 n j) k = ix2 n k :=
  funext fun a => by match a with | ⟨0, _⟩ => rfl | ⟨1, _⟩ => rfl
theorem rcol' (n : Fin 100000) (j : Fin 64) (k : Fin 128) : ridx_main_v17 (ix2 n j) k = ix2 k j :=
  funext fun a => by match a with | ⟨0, _⟩ => rfl | ⟨1, _⟩ => rfl
/-- The bias, broadcast to one row and then along the nodes, reads its entry `j`. -/
theorem bias_at (n : Fin 100000) (j : Fin 64) : idx_main_v14 (idx_main_v15 (ix2 n j)) = ix1 j :=
  funext fun a => by match a with | ⟨0, _⟩ => rfl
theorem bias_at' (n : Fin 100000) (j : Fin 64) : idx_main_v18 (idx_main_v19 (ix2 n j)) = ix1 j :=
  funext fun a => by match a with | ⟨0, _⟩ => rfl

/-- The first result is the affine projection of the aggregated features. -/
theorem first_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x64, .f32⟩ : BufTy).Contents (Elt Ideal)) (x5 : (⟨S64, .f32⟩ : BufTy).Contents (Elt Ideal)) :
    val_main_v16 (F := Ideal) x0 x1 x2 x3 x4 x5 = Cert.Spec.proj (val_main_v12 (F := Ideal) x0 x1 x2 x3) x4 x5 := by
  funext i
  obtain ⟨n, j, rfl⟩ : ∃ (n : Fin 100000) (j : Fin 64), i = ix2 n j := ⟨i 0, i 1, eq_ix2 i⟩
  rw [val_main_v16_apply, val_main_v13_apply, val_main_v15_apply, val_main_v14_apply, Cert.Spec.proj_apply]
  simp only [lrow, rcol, bias_at]
  rfl

/-- The second result is the clamped projection. -/
theorem second_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x6 : (⟨S128x64, .f32⟩ : BufTy).Contents (Elt Ideal)) (x7 : (⟨S64, .f32⟩ : BufTy).Contents (Elt Ideal)) :
    val_main_v21 (F := Ideal) x0 x1 x2 x3 x6 x7 = Cert.Spec.projClamped (val_main_v12 (F := Ideal) x0 x1 x2 x3) x6 x7 := by
  funext i
  obtain ⟨n, j, rfl⟩ : ∃ (n : Fin 100000) (j : Fin 64), i = ix2 n j := ⟨i 0, i 1, eq_ix2 i⟩
  rw [val_main_v21_apply, val_main_call0_v4_apply, val_main_call0_v3_apply, val_main_cst_2_apply,
    val_main_call0_v2_apply, val_main_call0_v1_apply, val_main_call0_v0_apply, val_main_cst_1_apply,
    val_main_v20_apply, val_main_v17_apply, val_main_v19_apply, val_main_v18_apply, Cert.Spec.projClamped_apply]
  simp only [lrow', rcol', bias_at']
  rfl

end Cert.ReferenceIdeal.RefValue

end
-- ==== Proof.HostStretch.lean ====
/-
  The aggregated features are one function of the arguments in both programs.

  Before the projections both programs run the same stretch: the column indices are wrapped (a negative index has
  100000 added), rows of `x` are gathered at them, each gathered row is scaled by its edge value, and the scaled rows
  are added into a zero array at the row indices.  The kernel program leaves the result in the array its call stages;
  the reference feeds it to both contractions.  The two terms are the same operations of the same arguments.
-/
import proofs.«173927_j27487790695252_1_alg».proof.Proof.Gen.KernelIdeal.Frame
import proofs.«173927_j27487790695252_1_alg».proof.Proof.Gen.ReferenceIdeal.Read
import Idealize.ShloMosaic.Lib.StableHlo.Run

noncomputable section

namespace Cert.KernelIdeal.Stretch

open Cert.KernelIdeal Cert.KernelIdeal.Gen Idealize.ShloMosaic Idealize.ShloMosaic.TcCoe Idealize.SL.Sem

variable (m : (ℓ : Loc nD τ sig) → Buf (Elt Ideal) ℓ)

/-- The array the kernel's call stages as the features is the reference's aggregation stage of the same arguments. -/
theorem agg_found (c : Dev nD) :
    (V m c main_v12 : S100000x128.Idx → EReal)
      = Cert.ReferenceIdeal.Read.val_main_v12 (F := Ideal) (m ((c : Thread nD τ).loc main_arg0)) (m ((c : Thread nD τ).loc main_arg1))
          (m ((c : Thread nD τ).loc main_arg2)) (m ((c : Thread nD τ).loc main_arg3)) := by
  dsimp only [Gen.V, Gen.hostOps0]; after_results; rfl

end Cert.KernelIdeal.Stretch

end
-- ==== Proof.lean ====
/-
  The kernel against its reference: a sparse aggregation followed by two affine projections, the second clamped.

  Both programs first aggregate node features over an edge list: rows of `x` are gathered at the (wrapped) column
  indices, scaled by the edge values, and added into a zero array at the row indices.  This stretch is the same
  sequence of operations in both programs, so the aggregated features `agg` are one function of the arguments
  (Proof/HostStretch.lean).  From `agg` each program computes
      mu (n, j)     = (∑ k < 128, agg (n, k) · W_mu (k, j)) + b_mu j
      logvar (n, j) = min 3 (max (-10) ((∑ k < 128, agg (n, k) · W_lv (k, j)) + b_lv j))
  (Proof/Spec.lean).  The reference does so with two whole-array contractions (Proof/RefValue.lean); the kernel does
  so 5000 rows at a time over a grid of 20 points, with a matrix product into a zero accumulator per tile
  (Proof/TileProduct.lean, Proof/PointValue.lean), the 20 row blocks tiling the 100000 rows (Proof/GridIndex.lean,
  Proof/StagedBlocks.lean, Proof/KernelValue.lean).  Over the extended reals a change of float format is the identity
  and both products are the same finite sum in the same order, so the results agree entry by entry; no law that
  would need finite inputs is used.
-/
import proofs.«173927_j27487790695252_1_alg».proof.Defs
import proofs.«173927_j27487790695252_1_alg».proof.Proof.Gen.Kernel
import proofs.«173927_j27487790695252_1_alg».proof.Proof.Gen.Kernel.Skeleton
import proofs.«173927_j27487790695252_1_alg».proof.Proof.Gen.Kernel.Launch
import proofs.«173927_j27487790695252_1_alg».proof.Proof.Gen.Kernel.Points
import proofs.«173927_j27487790695252_1_alg».proof.Proof.Gen.Kernel.Frame
import proofs.«173927_j27487790695252_1_alg».proof.Proof.Gen.KernelIdeal
import proofs.«173927_j27487790695252_1_alg».proof.Proof.Gen.KernelIdeal.Skeleton
import proofs.«173927_j27487790695252_1_alg».proof.Proof.Gen.KernelIdeal.Launch
import proofs.«173927_j27487790695252_1_alg».proof.Proof.Gen.KernelIdeal.Points
import proofs.«173927_j27487790695252_1_alg».proof.Proof.Gen.KernelIdeal.Frame
import proofs.«173927_j27487790695252_1_alg».proof.Proof.Gen.ReferenceIdeal
import proofs.«173927_j27487790695252_1_alg».proof.Proof.Gen.Pre_finite_inputs
import proofs.«173927_j27487790695252_1_alg».proof.Proof.Gen.KernelIdeal.Value
import proofs.«173927_j27487790695252_1_alg».proof.Proof.Gen.ReferenceIdeal.Run
import proofs.«173927_j27487790695252_1_alg».proof.Proof.Gen.ReferenceIdeal.Read
import proofs.«173927_j27487790695252_1_alg».proof.Proof.KernelValue
import proofs.«173927_j27487790695252_1_alg».proof.Proof.RefValue
import proofs.«173927_j27487790695252_1_alg».proof.Proof.HostStretch
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: it runs, and its run leaves the arguments unchanged. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Reading the kernel over the extended reals rewrote no operation. -/
theorem preserves : Cert.preserves_Kernel_KernelIdeal := trivial

/-- From agreeing arguments both programs end with the two projections of the same aggregated features. -/
theorem algebraic : Cert.algebraic_KernelIdeal_ReferenceIdeal := by
  intro m ρ m' ρ' _ hagree
  refine ⟨fun c => Cert.KernelIdeal.Arr.first m c (Cert.KernelIdeal.Gen.V m c Cert.KernelIdeal.main_v12),
    fun c => Cert.KernelIdeal.Arr.second m c (Cert.KernelIdeal.Gen.V m c Cert.KernelIdeal.main_v12),
    Cert.KernelIdeal.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7⟩ := hagree c
    rw [Cert.ReferenceIdeal.Read.val_main_v16_eq, Cert.ReferenceIdeal.RefValue.first_eq, a0, a1, a2, a3, a4, a5,
      ← Cert.KernelIdeal.Stretch.agg_found m c]
  · obtain ⟨a0, a1, a2, a3, a4, a5, a6, a7⟩ := hagree c
    rw [Cert.ReferenceIdeal.Read.val_main_v21_eq, Cert.ReferenceIdeal.RefValue.second_eq, a0, a1, a2, a3, a6, a7,
      ← Cert.KernelIdeal.Stretch.agg_found m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
